-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one run of the body leaves behind, case by case, as the body's own stored values.

  At the first contraction stretch the accumulator is reset to zero and then receives zero plus the stretch's
  product; at the later stretches it receives what it held plus the stretch's product; at the last stretch the
  output block additionally receives the accumulator's new contents. Every store covers its whole buffer, so what
  is read back is exactly what the last store wrote.
-/
import proofs.«112750_j31842887533435_1_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.ShloMosaic.Tactic Idealize.SL.Sem
open Cert.KernelIdeal Cert.KernelIdeal.Gen

variable {F : FTy → Type} [FloatOps F]

theorem offsets_zero : (![0, 0] : Fin 2 → Nat) = fun _ => 0 := funext fun a => by fin_cases a <;> rfl

/-- First stretch: the accumulator ends at zero plus the stretch's product. -/
theorem acc_first (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec F S1024x512 .f32) (x1 : Vec F S512x1024 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) offsets_zero]
  simp only [View.readAt_eq_ld, h3.read_unread, h4.read_unread, View.readCov_unit_zero (S := S1024x1024) _ offsets_zero,
    View.ld_unit_zero (S := S1024x512) offsets_zero, View.ld_unit_zero (S := S512x1024) offsets_zero,
    View.ld_unit_zero (S := S1024x1024) offsets_zero]

/-- A middle stretch: the accumulator ends at what it held plus the stretch's product. -/
theorem acc_middle (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec F S1024x512 .f32) (x1 : Vec F S512x1024 .f32) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero offsets_zero]
  simp only [View.readAt_eq_ld, h3.read_unread, h4.read_unread, h6.read_unread,
    View.ld_unit_zero (S := S1024x512) offsets_zero, View.ld_unit_zero (S := S512x1024) offsets_zero,
    View.ld_unit_zero (S := S1024x1024) offsets_zero]

/-- The last stretch: the accumulator likewise, -/
theorem acc_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero offsets_zero]
  simp only [View.readAt_eq_ld, h3.read_unread, h4.read_unread, h6.read_unread,
    View.ld_unit_zero (S := S1024x512) offsets_zero, View.ld_unit_zero (S := S512x1024) offsets_zero,
    View.ld_unit_zero (S := S1024x1024) offsets_zero]

/-- and the output block receives the same value, read back from the accumulator. -/
theorem out_last (c : Dev nD) (i : grid0.Coords) (a3 : Memref sig .tc .vmem S1024x512 .f32) (h3 : a3.IsWhole)
    (a4 : Memref sig .tc .vmem S512x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec F S1024x512 .f32) (x1 : Vec F S512x1024 .f32) (xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero offsets_zero]
  simp only [View.readAt_eq_ld, h3.read_unread, h4.read_unread, h6.read_unread,
    View.readCov_unit_zero (S := S1024x1024) _ offsets_zero,
    View.ld_unit_zero (S := S1024x512) offsets_zero, View.ld_unit_zero (S := S512x1024) offsets_zero,
    View.ld_unit_zero (S := S1024x1024) offsets_zero]

end Cert.KernelIdeal.Body

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.BlockedSum.lean ====
/-
  The mathematics of a contraction accumulated stretch by stretch.

  Entry (r, c) of the product of A − 128 and B − 128 is a sum of 4096 terms. Cut the contraction axis into eight
  consecutive stretches of 512: the whole sum is the sum of the eight stretch sums (addition of extended reals is
  commutative and associative, so no finiteness is needed), and the running sum of the first n + 1 stretches is the
  running sum of the first n plus stretch n. The running sum of all eight is the entry.
-/
import Mathlib.Algebra.BigOperators.Fin
import Mathlib.Logic.Equiv.Fin.Basic
import Idealize.ShloMosaic.PureOps.Ideal
import Idealize.ShloMosaic.Lib.ValueIdx

noncomputable section

namespace Cert.ShiftedProduct

open Idealize.ShloMosaic Idealize.ShloMosaic.ValueIdx

/-- Position kk of stretch b on the contraction axis: 512·b + kk (reduced mod 4096 so that it is total in b). -/
def kAt (b : ℕ) (kk : Fin 512) : Fin 4096 := ⟨(512 * b + kk.val) % 4096, Nat.mod_lt _ (by norm_num)⟩

theorem kAt_val (b : ℕ) (hb : b < 8) (kk : Fin 512) : (kAt b kk).val = 512 * b + kk.val := by
  have := kk.isLt
  show (512 * b + kk.val) % 4096 = _
  omega

section Regroup

variable {M : Type*} [AddCommMonoid M]

/-- The sum of a family over stretch b. -/
def stretch (f : Fin 4096 → M) (b : ℕ) : M := ∑ kk : Fin 512, f (kAt b kk)

/-- The eight stretch sums add up to the whole sum. -/
theorem sum_stretches (f : Fin 4096 → M) : ∑ b ∈ Finset.range 8, stretch f b = ∑ k : Fin 4096, f k := by
  rw [Finset.sum_range (fun b => stretch f b)]
  have e : ∑ k : Fin 4096, f k = ∑ x : Fin 8 × Fin 512, f (finProdFinEquiv x) :=
    (Equiv.sum_comp (finProdFinEquiv (m := 8) (n := 512)) f).symm
  rw [e, Fintype.sum_prod_type]
  refine Finset.sum_congr rfl fun b _ => Finset.sum_congr rfl fun kk _ => congrArg f (Fin.ext ?_)
  show (512 * b.val + kk.val) % 4096 = kk.val + 512 * b.val
  have := b.isLt
  have := kk.isLt
  omega

end Regroup

/-- The value 128 both programs subtract, as the extended real its f32 word denotes. -/
def shift : EReal := Ideal.ofBits .f32 0x43000000#32

/-- Term k of entry (r, c) of (A − 128)(B − 128). -/
def term (A B : FVec Ideal ⟨2, ![4096, 4096]⟩ .f32) (r c : Fin 4096) (k : Fin 4096) : EReal :=
  (A (ix2 r k) - shift) * (B (ix2 k c) - shift)

/-- Entry (r, c) of (A − 128)(B − 128). -/
def shiftedDot (A B : FVec Ideal ⟨2, ![4096, 4096]⟩ .f32) (r c : Fin 4096) : EReal :=
  ∑ k : Fin 4096, term A B r c k

/-- The running sum of the first n stretches of entry (r, c). -/
def partialDot (A B : FVec Ideal ⟨2, ![4096, 4096]⟩ .f32) (r c : Fin 4096) (n : ℕ) : EReal :=
  ∑ b ∈ Finset.range n, stretch (term A B r c) b

theorem partialDot_one (A B : FVec Ideal ⟨2, ![4096, 4096]⟩ .f32) (r c : Fin 4096) :
    partialDot A B r c 1 = stretch (term A B r c) 0 := by
  unfold partialDot
  rw [Finset.sum_range_one]

theorem partialDot_succ (A B : FVec Ideal ⟨2, ![4096, 4096]⟩ .f32) (r c : Fin 4096) (n : ℕ) :
    partialDot A B r c (n + 1) = partialDot A B r c n + stretch (term A B r c) n := by
  unfold partialDot
  rw [Finset.sum_range_succ]

/-- The product (A − 128)(B − 128) as an array: entry j is the shifted dot product of row j 0 and column j 1. -/
def shiftedProduct (A B : FVec Ideal ⟨2, ![4096, 4096]⟩ .f32) : FVec Ideal ⟨2, ![4096, 4096]⟩ .f32 :=
  fun j => shiftedDot A B (j 0) (j 1)

/-- All eight stretches: the entry. -/
theorem partialDot_eight (A B : FVec Ideal ⟨2, ![4096, 4096]⟩ .f32) (r c : Fin 4096) :
    partialDot A B r c 8 = shiftedDot A B r c :=
  sum_stretches (term A B r c)

end Cert.ShiftedProduct

end
-- ==== Proof.Payload.lean ====
/-
  The body's two stored values, read at an entry (p, q) of the 1024 × 1024 accumulator.

  The reset stores zero. The accumulation step stores acc + (x0 − 128)·(x1 − 128), a 1024 × 512 by 512 × 1024
  product into a zero accumulator: the change of format to bf16 is the identity on extended reals, so entry (p, q)
  is acc (p, q) plus the sum over the 512 positions kk of (x0 (p, kk) − 128)·(x1 (kk, q) − 128).
-/
import proofs.«112750_j31842887533435_1_alg».proof.Proof.Gen.KernelIdeal.Skeleton
import proofs.«112750_j31842887533435_1_alg».proof.Proof.LibDense
import proofs.«112750_j31842887533435_1_alg».proof.Proof.BlockedSum
import Idealize.ShloMosaic.Lib.Pipeline.Value

noncomputable section

namespace Cert.KernelIdeal.Body

open Idealize.ShloMosaic Idealize.ShloMosaic.ValueIdx Cert.KernelIdeal Cert.KernelIdeal.Gen Cert.ShiftedProduct

/-- The reset value is zero everywhere. -/
theorem reset_apply (p q : Fin 1024) : k0_pay1 (F := Ideal) (ix2 p q) = 0 := by
  unfold k0_pay1
  rw [shapeCast_self]
  exact Ideal.ofBits_zero_f32

/-- The accumulation step at (p, q). -/
theorem step_apply (x0 : Vec Ideal S1024x512 .f32) (x1 : Vec Ideal S512x1024 .f32) (acc : Vec Ideal S1024x1024 .f32)
    (p q : Fin 1024) :
    k0_pay2 x0 x1 acc (ix2 p q)
      = acc (ix2 p q) + ∑ kk : Fin 512, (x0 (ix2 p kk) - shift) * (x1 (ix2 kk q) - shift) := by
  unfold k0_pay2
  rw [shapeCast_self]
  refine (congrArg (acc (ix2 p q) + ·)
    (Cert.LibDense.matmul_zero_apply dot_S1024x512_S512x1024_S1024x1024_1_0_0_1_n_n none rfl rfl rfl rfl rfl rfl _ _ p q)).trans ?_
  rfl

end Cert.KernelIdeal.Body

end
-- ==== Proof.Blocks.lean ====
/-
  The blocks the windows stage, read in the argument arrays.

  The grid is 4 × 4 × 8, walked with the contraction axis fastest, so point n has row block n / 32, column block
  n / 8 % 4 and contraction stretch n % 8. The left operand's 1024 × 512 block at point n is rows
  1024·(n / 32) + p and columns 512·(n % 8) + kk of A; the right operand's 512 × 1024 block is rows
  512·(n % 8) + kk and columns 1024·(n / 8 % 4) + q of B.
-/
import proofs.«112750_j31842887533435_1_alg».proof.Proof.Gen.KernelIdeal.Frame
import proofs.«112750_j31842887533435_1_alg».proof.Proof.BlockedSum

noncomputable section

namespace Cert.KernelIdeal.Body

open Idealize.ShloMosaic Idealize.ShloMosaic.TcCoe Idealize.ShloMosaic.ValueIdx Idealize.SL.Sem
open Cert.KernelIdeal Cert.KernelIdeal.Gen Cert.ShiftedProduct

/-- Row 1024·(n / 32) + p of the 4096 rows (reduced mod 4096 so that it is total in n). -/
def rowAt (n : ℕ) (p : Fin 1024) : Fin 4096 := ⟨(1024 * (n / 32) + p.val) % 4096, Nat.mod_lt _ (by norm_num)⟩

/-- Column 1024·(n / 8 % 4) + q of the 4096 columns. -/
def colAt (n : ℕ) (q : Fin 1024) : Fin 4096 := ⟨(1024 * (n / 8 % 4) + q.val) % 4096, Nat.mod_lt _ (by norm_num)⟩

variable {F : FTy → Type} [FloatOps F]
variable (m : (ℓ : Loc nD τ sig) → Buf (Elt F) ℓ)

/-- The operands' blocks at a point and the operand arrays, at their literal types. -/
abbrev lhsBlock (c : Dev nD) (t : Fin cfg0.N) : Vec F S1024x512 .f32 := iblk m c 0 t
abbrev rhsBlock (c : Dev nD) (t : Fin cfg0.N) : Vec F S512x1024 .f32 := iblk m c 1 t
abbrev lhsArr (c : Dev nD) : Vec F S4096x4096 .f32 := V m c main_arg0
abbrev rhsArr (c : Dev nD) : Vec F S4096x4096 .f32 := V m c main_arg1

/-- The three index maps at point t, decided over the 128 points. -/
theorem index_facts : ∀ t : Fin cfg0.N,
    win0_0.index t 0 = t.val / 32 ∧ win0_0.index t 1 = t.val % 8
    ∧ win0_1.index t 0 = t.val % 8 ∧ win0_1.index t 1 = t.val / 8 % 4
    ∧ win0_2.index t 0 = t.val / 32 ∧ win0_2.index t 1 = t.val / 8 % 4 :=
  (by decide +kernel : ∀ t : Fin grid0.N,
    win0_0.index t 0 = t.val / 32 ∧ win0_0.index t 1 = t.val % 8
    ∧ win0_1.index t 0 = t.val % 8 ∧ win0_1.index t 1 = t.val / 8 % 4
    ∧ win0_2.index t 0 = t.val / 32 ∧ win0_2.index t 1 = t.val / 8 % 4)

/-- The left operand's block at point t, entry (p, kk), is A at (row, stretch position). -/
theorem lhsBlock_apply (c : Dev nD) (t : Fin cfg0.N) (p : Fin 1024) (kk : Fin 512) :
    lhsBlock m c t (ix2 p kk) = lhsArr m c (ix2 (rowAt t.val p) (kAt (t.val % 8) kk)) := by
  have hN : t.val < 128 := lt_of_lt_of_eq t.isLt (show cfg0.N = 128 from N_0)
  obtain ⟨h0, h1, -⟩ := index_facts t
  have hp := p.isLt
  have hk := kk.isLt
  show iblk m c 0 t (ix2 p kk) = V m c main_arg0 _
  unfold iblk
  rw [View.read_apply]
  show V m c main_arg0 _ = V m c main_arg0 _
  congr 1
  funext a
  apply Fin.ext
  match a with
  | ⟨0, _⟩ =>
    show win0_0.index t 0 * 1024 + 1 * p.val = (1024 * (t.val / 32) + p.val) % 4096
    rw [h0]; omega
  | ⟨1, _⟩ =>
    show win0_0.index t 1 * 512 + 1 * kk.val = (512 * (t.val % 8) + kk.val) % 4096
    rw [h1]; omega

/-- The right operand's block at point t, entry (kk, q), is B at (stretch position, column). -/
theorem rhsBlock_apply (c : Dev nD) (t : Fin cfg0.N) (kk : Fin 512) (q : Fin 1024) :
    rhsBlock m c t (ix2 kk q) = rhsArr m c (ix2 (kAt (t.val % 8) kk) (colAt t.val q)) := by
  have hN : t.val < 128 := lt_of_lt_of_eq t.isLt (show cfg0.N = 128 from N_0)
  obtain ⟨-, -, h0, h1, -⟩ := index_facts t
  have hq := q.isLt
  have hk := kk.isLt
  show iblk m c 1 t (ix2 kk q) = V m c main_arg1 _
  unfold iblk
  rw [View.read_apply]
  show V m c main_arg1 _ = V m c main_arg1 _
  congr 1
  funext a
  apply Fin.ext
  match a with
  | ⟨0, _⟩ =>
    show win0_1.index t 0 * 512 + 1 * kk.val = (512 * (t.val % 8) + kk.val) % 4096
    rw [h0]; omega
  | ⟨1, _⟩ =>
    show win0_1.index t 1 * 1024 + 1 * q.val = (1024 * (t.val / 8 % 4) + q.val) % 4096
    rw [h1]; omega

end Cert.KernelIdeal.Body

end
-- ==== Proof.Accumulate.lean ====
/-
  The accumulator after every grid point, by induction on the point.

  Point n works on row block n / 32, column block n / 8 % 4 and contraction stretch n % 8. After point n the
  accumulator's entry (p, q) is the running sum of stretches 0 … n % 8 of entry (row, column) of (A − 128)(B − 128):
  the first stretch starts from zero, every later stretch adds its product to what the point before left, and the
  row and column blocks do not move while the stretch counts up. At the last stretch the output block receives the
  same value, which is the whole entry.
-/
import proofs.«112750_j31842887533435_1_alg».proof.Proof.Pieces
import proofs.«112750_j31842887533435_1_alg».proof.Proof.Payload
import proofs.«112750_j31842887533435_1_alg».proof.Proof.Blocks

noncomputable section

namespace Cert.KernelIdeal.Body

open Idealize.ShloMosaic Idealize.ShloMosaic.TcCoe Idealize.ShloMosaic.ValueIdx Idealize.SL.Sem
open Cert.KernelIdeal Cert.KernelIdeal.Gen Cert.ShiftedProduct

variable (m : (ℓ : Loc nD τ sig) → Buf (Elt Ideal) ℓ)

/-- The product of the two staged blocks at point t, entry (p, q), is stretch t % 8 of the entry's terms. -/
theorem blockProduct_eq (c : Dev nD) (t : Fin cfg0.N) (p q : Fin 1024) :
    ∑ kk : Fin 512, (lhsBlock m c t (ix2 p kk) - shift) * (rhsBlock m c t (ix2 kk q) - shift)
      = stretch (term (lhsArr m c) (rhsArr m c) (rowAt t.val p) (colAt t.val q)) (t.val % 8) := by
  unfold stretch term
  refine Finset.sum_congr rfl fun kk _ => ?_
  rw [lhsBlock_apply, rhsBlock_apply]

/-- At a first stretch the accumulator ends at the stretch's product. -/
theorem acc_at_first (c : Dev nD) (t : Fin cfg0.N) (h0 : t.val % 8 = 0) (h1 : ¬t.val % 8 = 7) (p q : Fin 1024) :
    (outsAt0 m c t.val t.isLt).2 (ix2 p q)
      = stretch (term (lhsArr m c) (rhsArr m c) (rowAt t.val p) (colAt t.val q)) (t.val % 8) := by
  rw [outsAt0_A m c t h0 h1]
  dsimp only
  refine (congrFun (acc_first (F := Ideal) c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (lhsBlock m c t) (rhsBlock m c t)) (ix2 p q)).trans ?_
  refine (step_apply (lhsBlock m c t) (rhsBlock m c t) (k0_pay1 (F := Ideal)) p q).trans ?_
  rw [reset_apply, zero_add]
  exact blockProduct_eq m c t p q

/-- At a later stretch the accumulator ends at what the point before left plus the stretch's product. -/
theorem acc_at_later (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + stretch (term (lhsArr m c) (rhsArr m c) (rowAt t.val p) (colAt t.val q)) (t.val % 8) := by
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (lhsBlock m c t) (rhsBlock m c t)
      (outsAt0 m c (t.val - 1) (Nat.lt_of_le_of_lt (Nat.sub_le _ _) t.isLt)).2) (ix2 p q)).trans ?_
    refine (step_apply (lhsBlock m c t) (rhsBlock m c t) _ p q).trans ?_
    rw [blockProduct_eq m c t p q]
  · rw [outsAt0_B m c t h0 h1]
    dsimp only
    refine (congrFun (acc_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (lhsBlock m c t) (rhsBlock m c t)
      (outsAt0 m c (t.val - 1) (Nat.lt_of_le_of_lt (Nat.sub_le _ _) t.isLt)).2) (ix2 p q)).trans ?_
    refine (step_apply (lhsBlock m c t) (rhsBlock m c t) _ p q).trans ?_
    rw [blockProduct_eq m c t p q]

/-- At a last stretch the output block and the accumulator receive one value. -/
theorem out_eq_acc (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (lhsBlock m c t) (rhsBlock m c t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (lhsBlock m c t) (rhsBlock m c t)
      (outsAt0 m c (t.val - 1) (Nat.lt_of_le_of_lt (Nat.sub_le _ _) t.isLt)).2).symm

/-- The row block does not move inside a run of eight points. -/
theorem rowAt_succ (n : ℕ) (h : ¬(n + 1) % 8 = 0) (p : Fin 1024) : rowAt (n + 1) p = rowAt n p := by
  have e : (n + 1) / 32 = n / 32 := by omega
  apply Fin.ext
  show (1024 * ((n + 1) / 32) + p.val) % 4096 = (1024 * (n / 32) + p.val) % 4096
  rw [e]

/-- Nor does the column block. -/
theorem colAt_succ (n : ℕ) (h : ¬(n + 1) % 8 = 0) (q : Fin 1024) : colAt (n + 1) q = colAt n q := by
  have e : (n + 1) / 8 = n / 8 := by omega
  apply Fin.ext
  show (1024 * ((n + 1) / 8 % 4) + q.val) % 4096 = (1024 * (n / 8 % 4) + q.val) % 4096
  rw [e]

/-- THE RUNNING SUM: after point n the accumulator's entry (p, q) is the sum of stretches 0 … n % 8. -/
theorem acc_eq (c : Dev nD) : ∀ (n : ℕ) (h : n < cfg0.N) (p q : Fin 1024),
    (outsAt0 m c n h).2 (ix2 p q) = partialDot (lhsArr m c) (rhsArr m c) (rowAt n p) (colAt n q) (n % 8 + 1)
  | 0, h, p, q => by
    refine (acc_at_first m c ⟨0, h⟩ rfl (by show ¬0 % 8 = 7; omega) p q).trans ?_
    exact (partialDot_one _ _ _ _).symm
  | n + 1, h, p, q => by
    have hN : n + 1 < 128 := lt_of_lt_of_eq h (show cfg0.N = 128 from N_0)
    by_cases h0 : (n + 1) % 8 = 0
    · refine (acc_at_first m c ⟨n + 1, h⟩ h0 (by show ¬(n + 1) % 8 = 7; omega) p q).trans ?_
      show stretch _ ((n + 1) % 8) = partialDot _ _ _ _ ((n + 1) % 8 + 1)
      rw [h0]
      exact (partialDot_one _ _ _ _).symm
    · refine (acc_at_later m c ⟨n + 1, h⟩ h0 p q).trans ?_
      show (outsAt0 m c n _).2 (ix2 p q) + stretch (term _ _ (rowAt (n + 1) p) (colAt (n + 1) q)) ((n + 1) % 8)
        = partialDot _ _ (rowAt (n + 1) p) (colAt (n + 1) q) ((n + 1) % 8 + 1)
      rw [acc_eq c n _ p q, rowAt_succ n h0, colAt_succ n h0]
      have e : (n + 1) % 8 = n % 8 + 1 := by omega
      rw [e]
      exact (partialDot_succ _ _ _ _ _).symm

/-- So at a last stretch the output block's entry (p, q) is the whole entry of (A − 128)(B − 128). -/
theorem out_at_last (c : Dev nD) (t : Fin cfg0.N) (h1 : t.val % 8 = 7) (p q : Fin 1024) :
    (outsAt0 m c t.val t.isLt).1 (ix2 p q)
      = shiftedDot (lhsArr m c) (rhsArr m c) (rowAt t.val p) (colAt t.val q) := by
  rw [out_eq_acc m c t (by omega) h1, acc_eq m c t.val t.isLt p q, h1]
  exact partialDot_eight _ _ _ _

end Cert.KernelIdeal.Body

end
-- ==== Proof.Final.lean ====
/-
  The kernel's result array after the run.

  The output's 1024 × 1024 block is written back at the sixteen points that end a run of eight (n % 8 = 7), and the
  block written at point n is rows 1024·(n / 32) … and columns 1024·(n / 8 % 4) … of the product (A − 128)(B − 128).
  Entry (i₀, i₁) of the 4096 × 4096 array lies in the block of point 32·(i₀ / 1024) + 8·(i₁ / 1024) + 7, so the
  sixteen blocks cover the array and it ends holding the product.
-/
import proofs.«112750_j31842887533435_1_alg».proof.Proof.Accumulate
import proofs.«112750_j31842887533435_1_alg».proof.Proof.Gen.KernelIdeal.Value

noncomputable section

namespace Cert.KernelIdeal.Body

open Idealize.ShloMosaic Idealize.ShloMosaic.TcCoe Idealize.ShloMosaic.ValueIdx Idealize.SL.Sem
open Idealize.ShloMosaic.Pipeline (Dat)
open Cert.KernelIdeal Cert.KernelIdeal.Gen Cert.ShiftedProduct

variable (m : (ℓ : Loc nD τ sig) → Buf (Elt Ideal) ℓ) (ρ : Dev nD → PrngReg)

/-- The output block of a last-stretch point at any index of the block. -/
theorem out_block_apply (c : Dev nD) (t : Fin cfg0.N) (h1 : t.val % 8 = 7) (j : S1024x1024.Idx) :
    (outsAt0 m c t.val t.isLt).1 j
      = shiftedDot (lhsArr m c) (rhsArr m c) (rowAt t.val (j 0)) (colAt t.val (j 1)) :=
  (congrArg (outsAt0 m c t.val t.isLt).1 (eq_ix2 j)).trans (out_at_last m c t h1 (j 0) (j 1))

/-- What a flushing point writes back is its block of the product. -/
theorem flushed_eq (c : Dev nD) (t : Fin cfg0.N) (hf : (cfg0.win 2).flush t = true) :
    (dats m 0 c).flushed 2 t
      = ((cfg0.win 2).blk t).view.read (Elt Ideal) (shiftedProduct (lhsArr m c) (rhsArr m c)) := by
  have hN : t.val < 128 := lt_of_lt_of_eq t.isLt (show cfg0.N = 128 from N_0)
  have h1 : t.val % 8 = 7 := (flush0_2 t).mp hf
  obtain ⟨-, -, -, -, e0, e1⟩ := index_facts t
  rw [Cert.KernelIdeal.Value.flushed2]
  funext j
  show (outsAt0 m c t.val t.isLt).1 j
    = shiftedDot (lhsArr m c) (rhsArr m c) ((((cfg0.win 2).blk t).view.emb j) 0) ((((cfg0.win 2).blk t).view.emb j) 1)
  rw [out_block_apply m c t h1 j]
  have hj0 : (j 0).val < 1024 := (j 0).isLt
  have hj1 : (j 1).val < 1024 := (j 1).isLt
  congr 1
  · apply Fin.ext
    show (1024 * (t.val / 32) + (j 0).val) % 4096 = win0_2.index t 0 * 1024 + 1 * (j 0).val
    rw [e0]; omega
  · apply Fin.ext
    show (1024 * (t.val / 8 % 4) + (j 1).val) % 4096 = win0_2.index t 1 * 1024 + 1 * (j 1).val
    rw [e1]; omega

/-- An index of the array is in point t's block iff each coordinate is in the block's range on its axis. -/
theorem mem_block (t : Fin cfg0.N) (i : S4096x4096.Idx) :
    i ∈ ((cfg0.win 2).blk t).view.set
      ↔ ∀ a : Fin 2, win0_2.index t a * S1024x1024.size a ≤ (i a).val
          ∧ (i a).val < win0_2.index t a * S1024x1024.size a + S1024x1024.size a := by
  show i ∈ ((View.whole main_v0).slice (win0_2.rect t)).set ↔ _
  rw [View.set_slice_whole, Rect.mem_set_unit]
  exact Iff.rfl

/-- Every index of the array is in the block of a flushing point. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 128 := N_0
  obtain ⟨n, hn⟩ : ∃ n, n = 32 * ((i 0).val / 1024) + 8 * ((i 1).val / 1024) + 7 := ⟨_, rfl⟩
  have hlt : n < cfg0.N := by rw [hN]; omega
  refine ⟨⟨n, hlt⟩, (flush0_2 _).mpr (by show n % 8 = 7; omega), ?_⟩
  rw [mem_block]
  obtain ⟨-, -, -, -, e0, e1⟩ := index_facts ⟨n, hlt⟩
  intro a
  match a with
  | ⟨0, _⟩ =>
    show win0_2.index ⟨n, hlt⟩ 0 * 1024 ≤ (i 0).val ∧ (i 0).val < win0_2.index ⟨n, hlt⟩ 0 * 1024 + 1024
    rw [e0]
    show n / 32 * 1024 ≤ (i 0).val ∧ (i 0).val < n / 32 * 1024 + 1024
    omega
  | ⟨1, _⟩ =>
    show win0_2.index ⟨n, hlt⟩ 1 * 1024 ≤ (i 1).val ∧ (i 1).val < win0_2.index ⟨n, hlt⟩ 1 * 1024 + 1024
    rw [e1]
    show n / 8 % 4 * 1024 ≤ (i 1).val ∧ (i 1).val < n / 8 % 4 * 1024 + 1024
    omega

/-- The result array ends holding the product. -/
theorem out_final (c : Dev nD) :
    (dats m 0 c).arrAt 2 cfg0.N = shiftedProduct (lhsArr m c) (rhsArr m c) :=
  (dats m 0 c).arrAt_eq_of_cover 2 (shiftedProduct (lhsArr m c) (rhsArr m c)) (flushed_eq m c) covered

/-- The kernel's run: the result array at the product of the shifted arguments, the arguments unchanged. -/
theorem run : θ_run defs (onTc (τ := τ) (main (F := Ideal))) ⟨m, fun _ => 0, ρ⟩ fun r => ∀ c : Dev nD,
      r.2.mem ((c : Thread nD τ).loc main_v0)
        = shiftedProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (out_final m c), (h c).2⟩)
    (Cert.KernelIdeal.Value.run_blocks m ρ)

end Cert.KernelIdeal.Body

end
-- ==== Proof.RefValue.lean ====
/-
  The reference's result is the same product.

  The reference subtracts 128 from each argument and contracts the left operand's columns with the right
  operand's rows in one general dot: entry j is the sum over k of (A (j 0, k) − 128)·(B (k, j 1) − 128).
-/
import proofs.«112750_j31842887533435_1_alg».proof.Proof.Gen.ReferenceIdeal.Read
import proofs.«112750_j31842887533435_1_alg».proof.Proof.BlockedSum

noncomputable section

namespace Cert.ReferenceIdeal.RefValue

open Idealize.ShloMosaic Idealize.ShloMosaic.ValueIdx
open Cert.ReferenceIdeal Cert.ReferenceIdeal.Gen Cert.ReferenceIdeal.Read Cert.ShiftedProduct

/-- The left operand is read at (row of j, k), -/
theorem lidx_eq (j : S4096x4096.Idx) (k : Fin 4096) : lidx_main_v4 j k = ix2 (j 0) k :=
  funext fun a => Fin.ext (by match a with | ⟨0, _⟩ => rfl | ⟨1, _⟩ => rfl)

/-- the right operand at (k, column of j). -/
theorem ridx_eq (j : S4096x4096.Idx) (k : Fin 4096) : ridx_main_v4 j k = ix2 k (j 1) :=
  funext fun a => Fin.ext (by match a with | ⟨0, _⟩ => rfl | ⟨1, _⟩ => rfl)

/-- The reference run's result term is the product of the shifted arguments. -/
theorem result_eq (A B : FVec Ideal S4096x4096 .f32) :
    Host.dotGeneral dot_S4096x4096_S4096x4096_S4096x4096_1_0_0_1_n_n none
        (subf A (broadcastInDim S4096x4096 ![] bcast_S_S4096x4096 (constant S_ .f32 0x43000000#32)))
        (subf B (broadcastInDim S4096x4096 ![] bcast_S_S4096x4096 (constant S_ .f32 0x43000000#32)))
      = shiftedProduct A B := by
  rw [val_main_v4_eq]
  funext j
  rw [val_main_v4_apply]
  unfold shiftedProduct shiftedDot term
  refine Finset.sum_congr rfl fun k _ => ?_
  rw [val_main_v1_apply, val_main_v3_apply, val_main_v0_apply, val_main_v2_apply, val_main_cst_apply,
    val_main_cst_0_apply, lidx_eq, ridx_eq]
  rfl

end Cert.ReferenceIdeal.RefValue

end
-- ==== Proof.lean ====
/-
  The certificate of a quantized matrix product accumulated over a grid.

  The kernel computes (A − 128)(B − 128) for 4096 × 4096 arguments on a 4 × 4 × 8 grid: each point multiplies a
  1024 × 512 block of A − 128 by a 512 × 1024 block of B − 128 (in bf16, which over the extended reals changes
  nothing) and adds the product to a 1024 × 1024 accumulator that is reset at the first of every eight points and
  copied to the output block at the last. The reference is one whole dot of the shifted arguments. Over the
  extended reals both are the same sum of 4096 terms per entry: the kernel groups it into eight stretches of 512
  and starts from zero, and addition is commutative and associative, so the two results are equal without any
  appeal to finiteness of the inputs.

  The three frames are the generated ones (the reference's is its generated run with the result dropped); the
  idealization rewrote nothing, so it is preserved trivially; the value claim sets the kernel's run (Proof/Final.lean)
  beside the reference's run read as the same function (Proof/RefValue.lean).
-/
import proofs.«112750_j31842887533435_1_alg».proof.Defs
import proofs.«112750_j31842887533435_1_alg».proof.Proof.Gen.Kernel
import proofs.«112750_j31842887533435_1_alg».proof.Proof.Gen.Kernel.Skeleton
import proofs.«112750_j31842887533435_1_alg».proof.Proof.Gen.Kernel.Launch
import proofs.«112750_j31842887533435_1_alg».proof.Proof.Gen.Kernel.Points
import proofs.«112750_j31842887533435_1_alg».proof.Proof.Gen.Kernel.Frame
import proofs.«112750_j31842887533435_1_alg».proof.Proof.Gen.KernelIdeal
import proofs.«112750_j31842887533435_1_alg».proof.Proof.Gen.KernelIdeal.Skeleton
import proofs.«112750_j31842887533435_1_alg».proof.Proof.Gen.KernelIdeal.Launch
import proofs.«112750_j31842887533435_1_alg».proof.Proof.Gen.KernelIdeal.Points
import proofs.«112750_j31842887533435_1_alg».proof.Proof.Gen.KernelIdeal.Frame
import proofs.«112750_j31842887533435_1_alg».proof.Proof.Gen.ReferenceIdeal
import proofs.«112750_j31842887533435_1_alg».proof.Proof.Gen.Pre_finite_inputs
import proofs.«112750_j31842887533435_1_alg».proof.Proof.Gen.KernelIdeal.Value
import proofs.«112750_j31842887533435_1_alg».proof.Proof.Gen.ReferenceIdeal.Run
import proofs.«112750_j31842887533435_1_alg».proof.Proof.Gen.ReferenceIdeal.Read
import proofs.«112750_j31842887533435_1_alg».proof.Proof.Final
import proofs.«112750_j31842887533435_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the product of the shifted arguments in their result arrays. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
